-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x131072 : Shape := ⟨2, ![512, 131072]⟩
abbrev S2x131072 : Shape := ⟨2, ![2, 131072]⟩
abbrev S_ : Shape := ⟨0, ![]⟩

class Facts : Prop where
  bcast_S_S512x131072 : S_.BroadcastsInDim S512x131072 (![] : Fin 0 → Fin S512x131072.rank)
  reducesTo_S512x131072_S_d0_1 : S512x131072.ReducesTo [0, 1] S_
  h_S_ : 0 < S_.numel

variable [Facts]

def fn {F : FTy → Type} [FloatOps F] (main_arg0 : FVec F S512x131072 .f32) (main_arg1 : IVec S2x131072 32) (main_arg2 : IVec S2x131072 32) (main_arg3 : IVec S2x131072 32) (main_arg4 : IVec S2x131072 32) : IVec S_ 1 :=
  let main_v0 : FVec F S512x131072 .f32 := Host.absf main_arg0
  let main_cst : FVec F S_ .f32 := constant S_ .f32 0x7F800000#32
  let main_v1 : FVec F S512x131072 .f32 := broadcastInDim S512x131072 ![] bcast_S_S512x131072 main_cst
  let main_v2 : IVec S512x131072 1 := cmpf .olt main_v0 main_v1
  let main_c : IVec S_ 1 := constantI S_ 1 1#1
  let main_v3 : IVec S_ 1 := (fun x v => Host.reduce IntOp.andi x v reducesTo_S512x131072_S_d0_1 h_S_) main_v2 main_c
  main_v3
-- ==== Kernel.lean ====
abbrev S512x131072 : Shape := ⟨2, ![512, 131072]⟩
abbrev S2x131072 : Shape := ⟨2, ![2, 131072]⟩
abbrev S131072x512 : Shape := ⟨2, ![131072, 512]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S512x2048 : Shape := ⟨2, ![512, 2048]⟩
abbrev S2048x512 : Shape := ⟨2, ![2048, 512]⟩

abbrev nBuf : Space → Nat
  | .hbm => 95
  | .vmem => 8
  | .smem => 0
  | _ => 0

abbrev bufTy : (tb : Table) → Fin (tcTables nBuf tb) → BufTy
  | .hbm, ⟨0, _⟩ => ⟨S512x131072, .f32⟩
  | .hbm, ⟨1, _⟩ => ⟨S2x131072, .i32⟩
  | .hbm, ⟨2, _⟩ => ⟨S2x131072, .i32⟩
  | .hbm, ⟨3, _⟩ => ⟨S2x131072, .i32⟩
  | .hbm, ⟨4, _⟩ => ⟨S2x131072, .i32⟩
  | .hbm, ⟨5, _⟩ => ⟨S131072x512, .f32⟩
  | .hbm, ⟨6, _⟩ => ⟨S1x131072, .i32⟩
  | .hbm, ⟨7, _⟩ => ⟨S131072, .i32⟩
  | .hbm, ⟨8, _⟩ => ⟨S1x131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S131072x1, .i32⟩
  | .hbm, ⟨18, _⟩ => ⟨S131072x512, .f32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x512, .f32⟩
  | .hbm, ⟨28, _⟩ => ⟨S1x131072, .i32⟩
  | .hbm, ⟨29, _⟩ => ⟨S131072, .i32⟩
  | .hbm, ⟨30, _⟩ => ⟨S1x131072, .i32⟩
  | .hbm, ⟨31, _⟩ => ⟨S131072, .i32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x512, .f32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S131072x512, .f32⟩
  | .hbm, ⟨50, _⟩ => ⟨S1x131072, .i32⟩
  | .hbm, ⟨51, _⟩ => ⟨S131072, .i32⟩
  | .hbm, ⟨52, _⟩ => ⟨S1x131072, .i32⟩
  | .hbm, ⟨53, _⟩ => ⟨S131072, .i32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072x512, .f32⟩
  | .hbm, ⟨63, _⟩ => ⟨S_, .i32⟩
  | .hbm, ⟨64, _⟩ => ⟨S131072, .i32⟩
  | .hbm, ⟨65, _⟩ => ⟨S131072, .i1⟩
  | .hbm, ⟨66, _⟩ => ⟨S_, .i32⟩
  | .hbm, ⟨67, _⟩ => ⟨S131072, .i32⟩
  | .hbm, ⟨68, _⟩ => ⟨S131072, .i32⟩
  | .hbm, ⟨69, _⟩ => ⟨S131072, .i32⟩
  | .hbm, ⟨70, _⟩ => ⟨S131072x1, .i32⟩
  | .hbm, ⟨71, _⟩ => ⟨S131072x512, .f32⟩
  | .hbm, ⟨72, _⟩ => ⟨S1x131072, .i32⟩
  | .hbm, ⟨73, _⟩ => ⟨S131072, .i32⟩
  | .hbm, ⟨74, _⟩ => ⟨S1x131072, .i32⟩
  | .hbm, ⟨75, _⟩ => ⟨S131072, .i32⟩
  | .hbm, ⟨76, _⟩ => ⟨S_, .i32⟩
  | .hbm, ⟨77, _⟩ => ⟨S131072, .i32⟩
  | .hbm, ⟨78, _⟩ => ⟨S131072, .i1⟩
  | .hbm, ⟨79, _⟩ => ⟨S_, .i32⟩
  | .hbm, ⟨80, _⟩ => ⟨S131072, .i32⟩
  | .hbm, ⟨81, _⟩ => ⟨S131072, .i32⟩
  | .hbm, ⟨82, _⟩ => ⟨S131072, .i32⟩
  | .hbm, ⟨83, _⟩ => ⟨S131072x1, .i32⟩
  | .hbm, ⟨84, _⟩ => ⟨S131072x512, .f32⟩
  | .hbm, ⟨85, _⟩ => ⟨S_, .i32⟩
  | .hbm, ⟨86, _⟩ => ⟨S131072, .i32⟩
  | .hbm, ⟨87, _⟩ => ⟨S131072, .i1⟩
  | .hbm, ⟨88, _⟩ => ⟨S_, .i32⟩
  | .hbm, ⟨89, _⟩ => ⟨S131072, .i32⟩
  | .hbm, ⟨90, _⟩ => ⟨S131072, .i32⟩
  | .hbm, ⟨91, _⟩ => ⟨S131072, .i32⟩
  | .hbm, ⟨92, _⟩ => ⟨S131072x1, .i32⟩
  | .hbm, ⟨93, _⟩ => ⟨S131072x512, .f32⟩
  | .hbm, ⟨94, _⟩ => ⟨S512x131072, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | _, _ => ⟨S512x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c : Ref sig .tc := ⟨.hbm, 10, rfl⟩
abbrev main_call0_v5 : Ref sig .tc := ⟨.hbm, 11, rfl⟩
abbrev main_call0_v6 : Ref sig .tc := ⟨.hbm, 12, rfl⟩
abbrev main_call0_c_0 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_1 : Ref sig .tc := ⟨.hbm, 19, rfl⟩
abbrev main_call0_v12 : Ref sig .tc := ⟨.hbm, 20, rfl⟩
abbrev main_call0_v13 : Ref sig .tc := ⟨.hbm, 21, rfl⟩
abbrev main_call0_c_2 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_c_3 : Ref sig .tc := ⟨.hbm, 32, rfl⟩
abbrev main_call0_v23 : Ref sig .tc := ⟨.hbm, 33, rfl⟩
abbrev main_call0_v24 : Ref sig .tc := ⟨.hbm, 34, rfl⟩
abbrev main_call0_c_4 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_c_5 : Ref sig .tc := ⟨.hbm, 41, rfl⟩
abbrev main_call0_v30 : Ref sig .tc := ⟨.hbm, 42, rfl⟩
abbrev main_call0_v31 : Ref sig .tc := ⟨.hbm, 43, rfl⟩
abbrev main_call0_c_6 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_c_7 : Ref sig .tc := ⟨.hbm, 54, rfl⟩
abbrev main_call0_v41 : Ref sig .tc := ⟨.hbm, 55, rfl⟩
abbrev main_call0_v42 : Ref sig .tc := ⟨.hbm, 56, rfl⟩
abbrev main_call0_c_8 : Ref sig .tc := ⟨.hbm, 57, rfl⟩
abbrev main_call0_v43 : Ref sig .tc := ⟨.hbm, 58, rfl⟩
abbrev main_call0_v44 : Ref sig .tc := ⟨.hbm, 59, rfl⟩
abbrev main_call0_v45 : Ref sig .tc := ⟨.hbm, 60, rfl⟩
abbrev main_call0_v46 : Ref sig .tc := ⟨.hbm, 61, rfl⟩
abbrev main_call0_v47 : Ref sig .tc := ⟨.hbm, 62, rfl⟩
abbrev main_call0_c_9 : Ref sig .tc := ⟨.hbm, 63, rfl⟩
abbrev main_call0_v48 : Ref sig .tc := ⟨.hbm, 64, rfl⟩
abbrev main_call0_v49 : Ref sig .tc := ⟨.hbm, 65, rfl⟩
abbrev main_call0_c_10 : Ref sig .tc := ⟨.hbm, 66, rfl⟩
abbrev main_call0_v50 : Ref sig .tc := ⟨.hbm, 67, rfl⟩
abbrev main_call0_v51 : Ref sig .tc := ⟨.hbm, 68, rfl⟩
abbrev main_call0_v52 : Ref sig .tc := ⟨.hbm, 69, rfl⟩
abbrev main_call0_v53 : Ref sig .tc := ⟨.hbm, 70, rfl⟩
abbrev main_call0_v54 : Ref sig .tc := ⟨.hbm, 71, rfl⟩
abbrev main_call0_v55 : Ref sig .tc := ⟨.hbm, 72, rfl⟩
abbrev main_call0_v56 : Ref sig .tc := ⟨.hbm, 73, rfl⟩
abbrev main_call0_v57 : Ref sig .tc := ⟨.hbm, 74, rfl⟩
abbrev main_call0_v58 : Ref sig .tc := ⟨.hbm, 75, rfl⟩
abbrev main_call0_c_11 : Ref sig .tc := ⟨.hbm, 76, rfl⟩
abbrev main_call0_v59 : Ref sig .tc := ⟨.hbm, 77, rfl⟩
abbrev main_call0_v60 : Ref sig .tc := ⟨.hbm, 78, rfl⟩
abbrev main_call0_c_12 : Ref sig .tc := ⟨.hbm, 79, rfl⟩
abbrev main_call0_v61 : Ref sig .tc := ⟨.hbm, 80, rfl⟩
abbrev main_call0_v62 : Ref sig .tc := ⟨.hbm, 81, rfl⟩
abbrev main_call0_v63 : Ref sig .tc := ⟨.hbm, 82, rfl⟩
abbrev main_call0_v64 : Ref sig .tc := ⟨.hbm, 83, rfl⟩
abbrev main_call0_v65 : Ref sig .tc := ⟨.hbm, 84, rfl⟩
abbrev main_call0_c_13 : Ref sig .tc := ⟨.hbm, 85, rfl⟩
abbrev main_call0_v66 : Ref sig .tc := ⟨.hbm, 86, rfl⟩
abbrev main_call0_v67 : Ref sig .tc := ⟨.hbm, 87, rfl⟩
abbrev main_call0_c_14 : Ref sig .tc := ⟨.hbm, 88, rfl⟩
abbrev main_call0_v68 : Ref sig .tc := ⟨.hbm, 89, rfl⟩
abbrev main_call0_v69 : Ref sig .tc := ⟨.hbm, 90, rfl⟩
abbrev main_call0_v70 : Ref sig .tc := ⟨.hbm, 91, rfl⟩
abbrev main_call0_v71 : Ref sig .tc := ⟨.hbm, 92, rfl⟩
abbrev main_call0_v72 : Ref sig .tc := ⟨.hbm, 93, rfl⟩
abbrev main_v0 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  gather_S131072x512_S131072x1_S131072x512_1_0_n_n_0_1_1512_wf : GatherDims.WF S131072x512 S131072x1 S131072x512 [1] [0] [] [0] [] 1 ![1, 512]
  scatter_S131072x512_S131072x1_S131072x512_1_0_0_1_wf : ScatterDims.WF S131072x512 S131072x1 S131072x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x131072.size a
  hwx0_0 : ∀ i : grid0.Coords, EltTy.bits .f32 = 32 ∨ (Rect.block (s := S512x131072) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x131072.size a
  hwx1_1 : ∀ i : grid1.Coords, EltTy.bits .f32 = 32 ∨ (Rect.block (s := S512x131072) S512x2048.size (cc1_transform_1 i) (hinb1_1 i)).WholeWords (EltTy.packing .f32)

variable [Facts₀]

def gather_S131072x512_S131072x1_S131072x512_1_0_n_n_0_1_1512 : GatherDims S131072x512 S131072x1 S131072x512 where
  offsetDims := [1]
  collapsedSliceDims := [0]
  operandBatchingDims := []
  startIndicesBatchingDims := []
  startIndexMap := [0]
  indexVectorDim := 1
  sliceSizes := ![1, 512]
  wf := gather_S131072x512_S131072x1_S131072x512_1_0_n_n_0_1_1512_wf
def scatter_S131072x512_S131072x1_S131072x512_1_0_0_1 : ScatterDims S131072x512 S131072x1 S131072x512 where
  updateWindowDims := [1]
  insertedWindowDims := [0]
  scatterDimsToOperandDims := [0]
  indexVectorDim := 1
  wf := scatter_S131072x512_S131072x1_S131072x512_1_0_0_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_call0_v72) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S512x131072 : Shape := ⟨2, ![512, 131072]⟩
abbrev S2x131072 : Shape := ⟨2, ![2, 131072]⟩
abbrev S1x131072 : Shape := ⟨2, ![1, 131072]⟩
abbrev S131072 : Shape := ⟨1, ![131072]⟩
abbrev S_ : Shape := ⟨0, ![]⟩
abbrev S131072x1 : Shape := ⟨2, ![131072, 1]⟩

abbrev nBuf : Space → Nat
  | .hbm => 93
  | .vmem => 0
  | .smem => 0
  | _ => 0

abbrev bufTy : (tb : Table) → Fin (tcTables nBuf tb) → BufTy
  | .hbm, ⟨0, _⟩ => ⟨S512x131072, .f32⟩
  | .hbm, ⟨1, _⟩ => ⟨S2x131072, .i32⟩
  | .hbm, ⟨2, _⟩ => ⟨S2x131072, .i32⟩
  | .hbm, ⟨3, _⟩ => ⟨S2x131072, .i32⟩
  | .hbm, ⟨4, _⟩ => ⟨S2x131072, .i32⟩
  | .hbm, ⟨5, _⟩ => ⟨S1x131072, .i32⟩
  | .hbm, ⟨6, _⟩ => ⟨S131072, .i32⟩
  | .hbm, ⟨7, _⟩ => ⟨S1x131072, .i32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S512x131072, .f32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S512x131072, .f32⟩
  | .hbm, ⟨27, _⟩ => ⟨S1x131072, .i32⟩
  | .hbm, ⟨28, _⟩ => ⟨S131072, .i32⟩
  | .hbm, ⟨29, _⟩ => ⟨S1x131072, .i32⟩
  | .hbm, ⟨30, _⟩ => ⟨S131072, .i32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S512x131072, .f32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S512x131072, .f32⟩
  | .hbm, ⟨49, _⟩ => ⟨S1x131072, .i32⟩
  | .hbm, ⟨50, _⟩ => ⟨S131072, .i32⟩
  | .hbm, ⟨51, _⟩ => ⟨S1x131072, .i32⟩
  | .hbm, ⟨52, _⟩ => ⟨S131072, .i32⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S_, .i32⟩
  | .hbm, ⟨57, _⟩ => ⟨S131072, .i32⟩
  | .hbm, ⟨58, _⟩ => ⟨S131072, .i32⟩
  | .hbm, ⟨59, _⟩ => ⟨S131072, .i32⟩
  | .hbm, ⟨60, _⟩ => ⟨S131072x1, .i32⟩
  | .hbm, ⟨61, _⟩ => ⟨S512x131072, .f32⟩
  | .hbm, ⟨62, _⟩ => ⟨S_, .i32⟩
  | .hbm, ⟨63, _⟩ => ⟨S131072, .i32⟩
  | .hbm, ⟨64, _⟩ => ⟨S131072, .i1⟩
  | .hbm, ⟨65, _⟩ => ⟨S_, .i32⟩
  | .hbm, ⟨66, _⟩ => ⟨S131072, .i32⟩
  | .hbm, ⟨67, _⟩ => ⟨S131072, .i32⟩
  | .hbm, ⟨68, _⟩ => ⟨S131072, .i32⟩
  | .hbm, ⟨69, _⟩ => ⟨S131072x1, .i32⟩
  | .hbm, ⟨70, _⟩ => ⟨S512x131072, .f32⟩
  | .hbm, ⟨71, _⟩ => ⟨S1x131072, .i32⟩
  | .hbm, ⟨72, _⟩ => ⟨S131072, .i32⟩
  | .hbm, ⟨73, _⟩ => ⟨S1x131072, .i32⟩
  | .hbm, ⟨74, _⟩ => ⟨S131072, .i32⟩
  | .hbm, ⟨75, _⟩ => ⟨S_, .i32⟩
  | .hbm, ⟨76, _⟩ => ⟨S131072, .i32⟩
  | .hbm, ⟨77, _⟩ => ⟨S131072, .i1⟩
  | .hbm, ⟨78, _⟩ => ⟨S_, .i32⟩
  | .hbm, ⟨79, _⟩ => ⟨S131072, .i32⟩
  | .hbm, ⟨80, _⟩ => ⟨S131072, .i32⟩
  | .hbm, ⟨81, _⟩ => ⟨S131072, .i32⟩
  | .hbm, ⟨82, _⟩ => ⟨S131072x1, .i32⟩
  | .hbm, ⟨83, _⟩ => ⟨S512x131072, .f32⟩
  | .hbm, ⟨84, _⟩ => ⟨S_, .i32⟩
  | .hbm, ⟨85, _⟩ => ⟨S131072, .i32⟩
  | .hbm, ⟨86, _⟩ => ⟨S131072, .i1⟩
  | .hbm, ⟨87, _⟩ => ⟨S_, .i32⟩
  | .hbm, ⟨88, _⟩ => ⟨S131072, .i32⟩
  | .hbm, ⟨89, _⟩ => ⟨S131072, .i32⟩
  | .hbm, ⟨90, _⟩ => ⟨S131072, .i32⟩
  | .hbm, ⟨91, _⟩ => ⟨S131072x1, .i32⟩
  | .hbm, ⟨92, _⟩ => ⟨S512x131072, .f32⟩
  | _, _ => ⟨S512x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_c_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  gather_S512x131072_S131072x1_S512x131072_0_1_n_n_1_1_5121_wf : GatherDims.WF S512x131072 S131072x1 S512x131072 [0] [1] [] [1] [] 1 ![512, 1]
  scatter_S512x131072_S131072x1_S512x131072_0_1_1_1_wf : ScatterDims.WF S512x131072 S131072x1 S512x131072 [0] [1] [1] 1

variable [Facts₀]

def gather_S512x131072_S131072x1_S512x131072_0_1_n_n_1_1_5121 : GatherDims S512x131072 S131072x1 S512x131072 where
  offsetDims := [0]
  collapsedSliceDims := [1]
  operandBatchingDims := []
  startIndicesBatchingDims := []
  startIndexMap := [1]
  indexVectorDim := 1
  sliceSizes := ![512, 1]
  wf := gather_S512x131072_S131072x1_S512x131072_0_1_n_n_1_1_5121_wf
def scatter_S512x131072_S131072x1_S512x131072_0_1_1_1 : ScatterDims S512x131072 S131072x1 S512x131072 where
  updateWindowDims := [0]
  insertedWindowDims := [1]
  scatterDimsToOperandDims := [1]
  indexVectorDim := 1
  wf := scatter_S512x131072_S131072x1_S512x131072_0_1_1_1_wf

class Facts : Prop extends Facts₀ where

variable [Facts]
-- ==== Proof.LibGatherRead.lean ====
/-
  Row, column, vector and batched gathers read at an index given by coordinates.

  A gather reads, for each result index, one operand entry: on every operand axis the position is the clamped start
  (the start-index word for that axis, read as a signed integer and clamped so that the slice fits; zero on an axis the
  start index map does not name) plus the result's coordinate on a batching axis plus the result's coordinate on an
  offset axis.  For the four arrangements below every slice has extent one on the indexed axis, so the clamp is into
  `[0, N - 1]`, and the other coordinates are copied from the result index.
-/
import Idealize.ShloMosaic.PureOps.ShapeOps
import Idealize.ShloMosaic.Lib.ValueIdx

noncomputable section

namespace Cert.LibGatherRead

open Idealize.ShloMosaic Idealize.ShloMosaic.ValueIdx

variable {α : Type}

/-! ## Rows of a table: `table[idx, :]` -/

/-- The dimension numbers of a gather of whole rows: operand `[N, C]`, start indices `[R, 1]`, result `[R, C]`; the
    result's axis 1 is the offset axis, the operand's axis 0 is collapsed and is the one the start index names, and a
    slice is one row `[1, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A ROW GATHER READ AT `(r, c)`: the operand at row `idx[r, 0]` (read signed, clamped into `[0, N − 1]`) and
    column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    -- the indexed axis: the clamped start, nothing added
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: start zero, the result's column
    show (rowsDims N C R wf).start (ix2 r c) idx 1 + (rowsDims N C R wf).batchCoord (ix2 r c) 1
        + (rowsDims N C R wf).offCoord (ix2 r c) 1 = _
    rw [GatherDims.batchCoord_eq_zero _ _ _ List.not_mem_nil]
    unfold GatherDims.start
    rw [dif_neg (show (1 : Fin 2) ∉ (rowsDims N C R wf).startIndexMap from
      fun h => absurd (List.mem_singleton.mp h) (show ¬ ((1 : Fin 2) = 0) by decide))]
    simp only [Nat.add_zero, Nat.zero_add]
    rfl

/-! ## Columns of a table: `table[:, idx]` -/

/-- The dimension numbers of a gather of whole columns: operand `[R, N]`, start indices `[C, 1]`, result `[R, C]`;
    the result's axis 0 is the offset axis, the operand's axis 1 is collapsed and is the one the start index names, and
    a slice is one column `[R, 1]`. -/
abbrev colsDims (N C R : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- A COLUMN GATHER READ AT `(r, c)`: the operand at row `r` and column `idx[c, 0]` (read signed, clamped into
    `[0, N − 1]`). -/
theorem gather_cols_apply {N C R w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (c : Fin C) :
    Host.gather (colsDims N C R wf) x idx (ix2 r c)
      = x (ix2 r (⟨min (idx (ix2 c (0 : Fin 1))).toInt.toNat (N - 1), by omega⟩ : Fin N)) := by
  unfold Host.gather
  congr 1
  funext a
  refine Fin.ext ?_
  match a with
  | ⟨0, _⟩ =>
    -- the offset axis: start zero, the result's row
    show (colsDims N C R wf).start (ix2 r c) idx 0 + (colsDims N C R wf).batchCoord (ix2 r c) 0
        + (colsDims N C R wf).offCoord (ix2 r c) 0 = _
    rw [GatherDims.batchCoord_eq_zero _ _ _ List.not_mem_nil]
    unfold GatherDims.start
    rw [dif_neg (show (0 : Fin 2) ∉ (colsDims N C R wf).startIndexMap from
      fun h => absurd (List.mem_singleton.mp h) (show ¬ ((0 : Fin 2) = 1) by decide))]
    simp only [Nat.add_zero, Nat.zero_add]
    rfl
  | ⟨1, _⟩ =>
    -- the indexed axis: the clamped start, nothing added
    show (colsDims N C R wf).start (ix2 r c) idx 1 + (colsDims N C R wf).batchCoord (ix2 r c) 1
        + (colsDims N C R wf).offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C R wf).startIndexMap from List.mem_singleton.mpr rfl)]
    have hsi : (colsDims N C R wf).siIdx (ix2 r c) ⟨List.idxOf (1 : Fin 2) (colsDims N C R wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

/-! ## Entries of a vector: `v[idx]` -/

/-- The dimension numbers of a gather of single entries of a vector: operand `[N]`, start indices `[R, 1]`, result
    `[R]`; no offset axis, the operand's only axis is collapsed and is the one the start index names, and a slice is one
    entry. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A VECTOR GATHER READ AT `r`: the operand at `idx[r, 0]` (read signed, clamped into `[0, N − 1]`). -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (vecDims N R wf).start (ix1 r) idx 0 + (vecDims N R wf).batchCoord (ix1 r) 0
        + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## One entry of each row, the row given by the batch: `take_along_axis(table, idx, axis = 1)` -/

/-- The dimension numbers of a batched gather of one entry per row: operand `[R, N]`, start indices `[R, 1, 1]`,
    result `[R, 1]`; no offset axis, axis 0 of the operand and of the start indices are the paired batching axes, the
    operand's axis 1 is collapsed and is the one the start index names, and a slice is one entry. -/
abbrev batchedDims (N R : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- A BATCHED GATHER READ AT `(r, u)`: the operand at row `r` and column `idx[r, 0, 0]` (read signed, clamped into
    `[0, N − 1]`). -/
theorem gather_batched_apply {N R w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1) :
    Host.gather (batchedDims N R wf) x idx (ix2 r u)
      = x (ix2 r (⟨min (idx (ix3 r (0 : Fin 1) (0 : Fin 1))).toInt.toNat (N - 1), by omega⟩ : Fin N)) := by
  obtain rfl : u = 0 := Subsingleton.elim _ _
  unfold Host.gather
  congr 1
  funext a
  refine Fin.ext ?_
  match a with
  | ⟨0, _⟩ =>
    -- the batching axis: start zero, the result's row, no offset
    show (batchedDims N R wf).start (ix2 r 0) idx 0 + (batchedDims N R wf).batchCoord (ix2 r 0) 0
        + (batchedDims N R wf).offCoord (ix2 r 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (batchedDims N R wf).operandBatchingDims from List.mem_singleton.mpr rfl)]
    rfl
  | ⟨1, _⟩ =>
    -- the indexed axis: the clamped start, nothing added
    show (batchedDims N R wf).start (ix2 r 0) idx 1 + (batchedDims N R wf).batchCoord (ix2 r 0) 1
        + (batchedDims N R wf).offCoord (ix2 r 0) 1 = _
    rw [GatherDims.batchCoord_eq_zero _ _ _ (fun h => absurd (List.mem_singleton.mp h)
        (show ¬ ((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (batchedDims N R wf).startIndexMap from List.mem_singleton.mpr rfl)]
    have hsi : (batchedDims N R wf).siIdx (ix2 r 0) ⟨List.idxOf (1 : Fin 2) (batchedDims N R wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRead

end
-- ==== Proof.LibScatterAddRead.lean ====
/-
  Accumulating row and column scatters read at an index given by coordinates, over the extended reals.

  An accumulating scatter adds every update entry to the operand entry it lands on.  Where an update lands is its
  start (the scatter-index word for the scattered axis, read as a signed integer and NOT clamped; zero on the other
  axis) plus its window coordinate; an update whose landing position is outside the operand is dropped.  For a
  scatter of whole rows (or whole columns) the update `(r, c)` lands in row `idx[r, 0]` and column `c` (or in row
  `r` and column `idx[c, 0]`), so an operand entry receives the sum, over the scatter positions whose word names its
  row (its column), of the update entries in its column (its row).
-/
import Idealize.ShloMosaic.PureOps.Contract
import Idealize.ShloMosaic.PureOps.Ideal
import Idealize.ShloMosaic.Lib.ValueIdx

noncomputable section

open scoped BigOperators

namespace Cert.LibScatterAddRead

open Idealize.ShloMosaic Idealize.ShloMosaic.ValueIdx

/-- An operand axis is among the window axes' targets exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Rows of a table: `table.at[idx, :].add(upd)` -/

/-- The dimension numbers of a scatter of whole rows: operand `[N, C]`, scatter indices `[R, 1]`, updates `[R, C]`;
    the updates' axis 1 is the window axis, the operand's axis 0 is inserted and is the one the scatter index names. -/
abbrev rowsDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N C R w : Nat} (wf : ScatterDims.WF ⟨2, ![N, C]⟩ ⟨2, ![R, 1]⟩ ⟨2, ![R, C]⟩ [1] [0] [0] 1)
  (idx : IVec ⟨2, ![R, 1]⟩ w)

/-- On the scattered axis an update's start is its scatter-index word, read signed. -/
theorem rows_start0 (r : Fin R) (c : Fin C) :
    (rowsDims N C R wf).start (ix2 r c) idx 0 = (idx (ix2 r (0 : Fin 1))).toInt := by
  unfold ScatterDims.start
  rw [dif_pos (show (0 : Fin 2) ∈ (rowsDims N C R wf).scatterDimsToOperandDims from List.mem_singleton.mpr rfl)]
  have hsi : (rowsDims N C R wf).siIdx (ix2 r c) ⟨List.idxOf (0 : Fin 2) (rowsDims N C R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- On the window axis the start is zero. -/
theorem rows_start1 (r : Fin R) (c : Fin C) : (rowsDims N C R wf).start (ix2 r c) idx 1 = 0 := by
  unfold ScatterDims.start
  rw [dif_neg (show (1 : Fin 2) ∉ (rowsDims N C R wf).scatterDimsToOperandDims from
    fun h => absurd (List.mem_singleton.mp h) (show ¬ ((1 : Fin 2) = 0) by decide))]

/-- The scattered axis is inserted: no window coordinate there. -/
theorem rows_window0 (r : Fin R) (c : Fin C) : (rowsDims N C R wf).window (ix2 r c) 0 = 0 := by
  unfold ScatterDims.window
  rw [dif_neg (show (0 : Fin 2) ∉ (rowsDims N C R wf).sKept from
    fun h => (mem_sKept _ _).mp h (List.mem_singleton.mpr rfl))]

/-- The window coordinate on the other axis is the update's column. -/
theorem rows_window1 (r : Fin R) (c : Fin C) : (rowsDims N C R wf).window (ix2 r c) 1 = c.val := by
  unfold ScatterDims.window
  rw [dif_pos (show (1 : Fin 2) ∈ (rowsDims N C R wf).sKept from
    (mem_sKept _ _).mpr fun h => absurd (List.mem_singleton.mp h) (show ¬ ((1 : Fin 2) = 0) by decide))]
  rfl

/-- Where the update `(r, c)` lands: at `(n, c')` exactly when its scatter-index word, read signed, is `n` and
    `c = c'`. -/
theorem rows_lands_iff (r : Fin R) (c : Fin C) (n : Fin N) (c' : Fin C) :
    (rowsDims N C R wf).resultIdx? (ix2 r c) idx = some (ix2 n c')
      ↔ (idx (ix2 r (0 : Fin 1))).toInt = (n.val : Int) ∧ c = c' := by
  unfold ScatterDims.resultIdx?
  constructor
  · intro h
    split at h
    · have hf := Option.some.inj h
      have h0 : ((rowsDims N C R wf).start (ix2 r c) idx 0 + ((rowsDims N C R wf).window (ix2 r c) 0 : Int)).toNat = n.val :=
        congrArg (fun f : (⟨2, ![N, C]⟩ : Shape).Idx => (f 0).val) hf
      have h1 : ((rowsDims N C R wf).start (ix2 r c) idx 1 + ((rowsDims N C R wf).window (ix2 r c) 1 : Int)).toNat = c'.val :=
        congrArg (fun f : (⟨2, ![N, C]⟩ : Shape).Idx => (f 1).val) hf
      rename_i hall
      have hb := (hall 0).1
      rw [rows_start0, rows_window0] at h0 hb
      rw [rows_start1, rows_window1] at h1
      refine ⟨by omega, Fin.ext (by omega)⟩
    · exact absurd h (by simp)
  · rintro ⟨hv, rfl⟩
    have hall : ∀ a : Fin 2, 0 ≤ (rowsDims N C R wf).start (ix2 r c) idx a + ((rowsDims N C R wf).window (ix2 r c) a : Int)
        ∧ (rowsDims N C R wf).start (ix2 r c) idx a + ((rowsDims N C R wf).window (ix2 r c) a : Int)
          < ((⟨2, ![N, C]⟩ : Shape).size a : Int) := by
      intro a
      match a with
      | ⟨0, _⟩ =>
        show 0 ≤ (rowsDims N C R wf).start (ix2 r c) idx 0 + ((rowsDims N C R wf).window (ix2 r c) 0 : Int)
          ∧ (rowsDims N C R wf).start (ix2 r c) idx 0 + ((rowsDims N C R wf).window (ix2 r c) 0 : Int) < (N : Int)
        rw [rows_start0, rows_window0, hv]
        have := n.isLt
        omega
      | ⟨1, _⟩ =>
        show 0 ≤ (rowsDims N C R wf).start (ix2 r c) idx 1 + ((rowsDims N C R wf).window (ix2 r c) 1 : Int)
          ∧ (rowsDims N C R wf).start (ix2 r c) idx 1 + ((rowsDims N C R wf).window (ix2 r c) 1 : Int) < (C : Int)
        rw [rows_start1, rows_window1]
        have := c.isLt
        omega
    rw [dif_pos hall]
    refine congrArg some (funext fun a => Fin.ext ?_)
    match a with
    | ⟨0, _⟩ =>
      show ((rowsDims N C R wf).start (ix2 r c) idx 0 + ((rowsDims N C R wf).window (ix2 r c) 0 : Int)).toNat = n.val
      rw [rows_start0, rows_window0, hv]
      omega
    | ⟨1, _⟩ =>
      show ((rowsDims N C R wf).start (ix2 r c) idx 1 + ((rowsDims N C R wf).window (ix2 r c) 1 : Int)).toNat = c.val
      rw [rows_start1, rows_window1]
      omega

/-- AN ACCUMULATING ROW SCATTER READ AT `(n, c)`: the operand entry plus the sum, over the scatter positions `r` whose
    word names row `n`, of the update entries `(r, c)`. -/
theorem scatterAdd_rows_apply (x : (⟨2, ![N, C]⟩ : Shape).Idx → EReal) (upd : (⟨2, ![R, C]⟩ : Shape).Idx → EReal)
    (n : Fin N) (c : Fin C) :
    Ideal.hostScatterAdd (rowsDims N C R wf) x idx upd (ix2 n c)
      = x (ix2 n c) + ∑ r : Fin R, if (idx (ix2 r (0 : Fin 1))).toInt = (n.val : Int) then upd (ix2 r c) else 0 := by
  unfold Ideal.hostScatterAdd
  refine congrArg (x (ix2 n c) + ·) ?_
  rw [Finset.sum_filter, sum_idx2]
  refine Finset.sum_congr rfl fun r _ => ?_
  by_cases hv : (idx (ix2 r (0 : Fin 1))).toInt = (n.val : Int)
  · rw [if_pos hv]
    rw [Finset.sum_eq_single c]
    · rw [if_pos ((rows_lands_iff wf idx r c n c).mpr ⟨hv, rfl⟩)]
    · intro c' _ hne
      rw [if_neg (fun h => hne ((rows_lands_iff wf idx r c' n c).mp h).2)]
    · intro h; exact absurd (Finset.mem_univ c) h
  · rw [if_neg hv]
    refine Finset.sum_eq_zero fun c' _ => ?_
    rw [if_neg (fun h => hv ((rows_lands_iff wf idx r c' n c).mp h).1)]

end Rows

/-! ## Columns of a table: `table.at[:, idx].add(upd)` -/

/-- The dimension numbers of a scatter of whole columns: operand `[R, N]`, scatter indices `[C, 1]`, updates
    `[R, C]`; the updates' axis 0 is the window axis, the operand's axis 1 is inserted and is the one the scatter index
    names. -/
abbrev colsDims (N C R : Nat)
    (wf : ScatterDims.WF ⟨2, ![R, N]⟩ ⟨2, ![C, 1]⟩ ⟨2, ![R, C]⟩ [0] [1] [1] 1) :
    ScatterDims ⟨2, ![R, N]⟩ ⟨2, ![C, 1]⟩ ⟨2, ![R, C]⟩ where
  updateWindowDims := [0]
  insertedWindowDims := [1]
  scatterDimsToOperandDims := [1]
  indexVectorDim := 1
  wf := wf

section Cols
variable {N C R w : Nat} (wf : ScatterDims.WF ⟨2, ![R, N]⟩ ⟨2, ![C, 1]⟩ ⟨2, ![R, C]⟩ [0] [1] [1] 1)
  (idx : IVec ⟨2, ![C, 1]⟩ w)

/-- On the window axis the start is zero. -/
theorem cols_start0 (r : Fin R) (c : Fin C) : (colsDims N C R wf).start (ix2 r c) idx 0 = 0 := by
  unfold ScatterDims.start
  rw [dif_neg (show (0 : Fin 2) ∉ (colsDims N C R wf).scatterDimsToOperandDims from
    fun h => absurd (List.mem_singleton.mp h) (show ¬ ((0 : Fin 2) = 1) by decide))]

/-- On the scattered axis an update's start is its scatter-index word, read signed. -/
theorem cols_start1 (r : Fin R) (c : Fin C) :
    (colsDims N C R wf).start (ix2 r c) idx 1 = (idx (ix2 c (0 : Fin 1))).toInt := by
  unfold ScatterDims.start
  rw [dif_pos (show (1 : Fin 2) ∈ (colsDims N C R wf).scatterDimsToOperandDims from List.mem_singleton.mpr rfl)]
  have hsi : (colsDims N C R wf).siIdx (ix2 r c) ⟨List.idxOf (1 : Fin 2) (colsDims N C R wf).scatterDimsToOperandDims,
      List.idxOf_lt_length_iff.2 (List.mem_singleton.mpr rfl)⟩ = ix2 c (0 : Fin 1) := by
    funext b; refine Fin.ext ?_
    match b with
    | ⟨0, _⟩ => rfl
    | ⟨1, _⟩ => rfl
  rw [hsi]

/-- The window coordinate on the window axis is the update's row. -/
theorem cols_window0 (r : Fin R) (c : Fin C) : (colsDims N C R wf).window (ix2 r c) 0 = r.val := by
  unfold ScatterDims.window
  rw [dif_pos (show (0 : Fin 2) ∈ (colsDims N C R wf).sKept from
    (mem_sKept _ _).mpr fun h => absurd (List.mem_singleton.mp h) (show ¬ ((0 : Fin 2) = 1) by decide))]
  rfl

/-- The scattered axis is inserted: no window coordinate there. -/
theorem cols_window1 (r : Fin R) (c : Fin C) : (colsDims N C R wf).window (ix2 r c) 1 = 0 := by
  unfold ScatterDims.window
  rw [dif_neg (show (1 : Fin 2) ∉ (colsDims N C R wf).sKept from
    fun h => (mem_sKept _ _).mp h (List.mem_singleton.mpr rfl))]

/-- Where the update `(r, c)` lands: at `(r', n)` exactly when `r = r'` and its scatter-index word, read signed, is
    `n`. -/
theorem cols_lands_iff (r : Fin R) (c : Fin C) (r' : Fin R) (n : Fin N) :
    (colsDims N C R wf).resultIdx? (ix2 r c) idx = some (ix2 r' n)
      ↔ r = r' ∧ (idx (ix2 c (0 : Fin 1))).toInt = (n.val : Int) := by
  unfold ScatterDims.resultIdx?
  constructor
  · intro h
    split at h
    · have hf := Option.some.inj h
      have h0 : ((colsDims N C R wf).start (ix2 r c) idx 0 + ((colsDims N C R wf).window (ix2 r c) 0 : Int)).toNat = r'.val :=
        congrArg (fun f : (⟨2, ![R, N]⟩ : Shape).Idx => (f 0).val) hf
      have h1 : ((colsDims N C R wf).start (ix2 r c) idx 1 + ((colsDims N C R wf).window (ix2 r c) 1 : Int)).toNat = n.val :=
        congrArg (fun f : (⟨2, ![R, N]⟩ : Shape).Idx => (f 1).val) hf
      rename_i hall
      have hb := (hall 1).1
      rw [cols_start0, cols_window0] at h0
      rw [cols_start1, cols_window1] at h1 hb
      refine ⟨Fin.ext (by omega), by omega⟩
    · exact absurd h (by simp)
  · rintro ⟨rfl, hv⟩
    have hall : ∀ a : Fin 2, 0 ≤ (colsDims N C R wf).start (ix2 r c) idx a + ((colsDims N C R wf).window (ix2 r c) a : Int)
        ∧ (colsDims N C R wf).start (ix2 r c) idx a + ((colsDims N C R wf).window (ix2 r c) a : Int)
          < ((⟨2, ![R, N]⟩ : Shape).size a : Int) := by
      intro a
      match a with
      | ⟨0, _⟩ =>
        show 0 ≤ (colsDims N C R wf).start (ix2 r c) idx 0 + ((colsDims N C R wf).window (ix2 r c) 0 : Int)
          ∧ (colsDims N C R wf).start (ix2 r c) idx 0 + ((colsDims N C R wf).window (ix2 r c) 0 : Int) < (R : Int)
        rw [cols_start0, cols_window0]
        have := r.isLt
        omega
      | ⟨1, _⟩ =>
        show 0 ≤ (colsDims N C R wf).start (ix2 r c) idx 1 + ((colsDims N C R wf).window (ix2 r c) 1 : Int)
          ∧ (colsDims N C R wf).start (ix2 r c) idx 1 + ((colsDims N C R wf).window (ix2 r c) 1 : Int) < (N : Int)
        rw [cols_start1, cols_window1, hv]
        have := n.isLt
        omega
    rw [dif_pos hall]
    refine congrArg some (funext fun a => Fin.ext ?_)
    match a with
    | ⟨0, _⟩ =>
      show ((colsDims N C R wf).start (ix2 r c) idx 0 + ((colsDims N C R wf).window (ix2 r c) 0 : Int)).toNat = r.val
      rw [cols_start0, cols_window0]
      omega
    | ⟨1, _⟩ =>
      show ((colsDims N C R wf).start (ix2 r c) idx 1 + ((colsDims N C R wf).window (ix2 r c) 1 : Int)).toNat = n.val
      rw [cols_start1, cols_window1, hv]
      omega

/-- AN ACCUMULATING COLUMN SCATTER READ AT `(r, n)`: the operand entry plus the sum, over the scatter positions `c`
    whose word names column `n`, of the update entries `(r, c)`. -/
theorem scatterAdd_cols_apply (x : (⟨2, ![R, N]⟩ : Shape).Idx → EReal) (upd : (⟨2, ![R, C]⟩ : Shape).Idx → EReal)
    (r : Fin R) (n : Fin N) :
    Ideal.hostScatterAdd (colsDims N C R wf) x idx upd (ix2 r n)
      = x (ix2 r n) + ∑ c : Fin C, if (idx (ix2 c (0 : Fin 1))).toInt = (n.val : Int) then upd (ix2 r c) else 0 := by
  unfold Ideal.hostScatterAdd
  refine congrArg (x (ix2 r n) + ·) ?_
  rw [Finset.sum_filter, sum_idx2, Finset.sum_eq_single r]
  · refine Finset.sum_congr rfl fun c _ => ?_
    by_cases hv : (idx (ix2 c (0 : Fin 1))).toInt = (n.val : Int)
    · rw [if_pos hv, if_pos ((cols_lands_iff wf idx r c r n).mpr ⟨rfl, hv⟩)]
    · rw [if_neg hv, if_neg (fun h => hv ((cols_lands_iff wf idx r c r n).mp h).2)]
  · intro r' _ hne
    refine Finset.sum_eq_zero fun c _ => ?_
    rw [if_neg (fun h => hne ((cols_lands_iff wf idx r' c r n).mp h).1)]
  · intro h; exact absurd (Finset.mem_univ r) h

end Cols

end Cert.LibScatterAddRead

end
-- ==== Proof.TransposeLevel.lean ====
/-
  Gathering and accumulating along the rows of a table is, read through the exchange of the table's two axes, gathering
  and accumulating along the columns.

  One level of the aggregation takes a table `y`, a list of source positions and a list of destination positions, and
  returns `y` with, for each list entry `e`, the slice of `y` at the (clamped) source position of `e` added to the
  slice at the destination position of `e` (entries whose destination is outside the table are dropped; the slices
  read are those of the table BEFORE the level).  On the layout `[N, B]` the slices are rows, on `[B, N]` they are
  columns.  Entry `(b, n)` of the column form is `y[b, n] + ∑ e with dst e = n, y[b, clamp (src e)]`, entry `(n, b)` of
  the row form of the transposed table is `yᵀ[n, b] + ∑ e with dst e = n, yᵀ[clamp (src e), b]`: the same sum, term by
  term.  No law of the extended reals is used beyond reading both sums at an index.
-/
import proofs.«430245_j27376121544839_3_alg».proof.Proof.LibGatherRead
import proofs.«430245_j27376121544839_3_alg».proof.Proof.LibScatterAddRead

noncomputable section

open scoped BigOperators

namespace Cert.TransposeLevel

open Idealize.ShloMosaic Idealize.ShloMosaic.ValueIdx

/-! ## The exchange of a table's two axes -/

/-- The table with its two axes exchanged: entry `(j, i)` is the operand's entry `(i, j)`. -/
def swap2 {α : Type} {a b : Nat} (x : (⟨2, ![a, b]⟩ : Shape).Idx → α) : (⟨2, ![b, a]⟩ : Shape).Idx → α :=
  fun i => x (ix2 (n0 := a) (n1 := b) (i 1) (i 0))

theorem swap2_apply {α : Type} {a b : Nat} (x : (⟨2, ![a, b]⟩ : Shape).Idx → α) (j : Fin b) (i : Fin a) :
    swap2 x (ix2 j i) = x (ix2 i j) := rfl

/-- Exchanging the axes twice gives the table back. -/
theorem swap2_swap2 {α : Type} {a b : Nat} (x : (⟨2, ![a, b]⟩ : Shape).Idx → α) : swap2 (swap2 x) = x := by
  funext i
  obtain ⟨p, q, rfl⟩ : ∃ (p : Fin a) (q : Fin b), i = ix2 p q := ⟨i 0, i 1, eq_ix2 i⟩
  rfl

/-! ## One level, on either layout -/

section Level
variable {B N E w : Nat}
  (wfGc : GatherDims.WF ⟨2, ![B, N]⟩ ⟨2, ![E, 1]⟩ ⟨2, ![B, E]⟩ [0] [1] [] [1] [] 1 ![B, 1])
  (wfGr : GatherDims.WF ⟨2, ![N, B]⟩ ⟨2, ![E, 1]⟩ ⟨2, ![E, B]⟩ [1] [0] [] [0] [] 1 ![1, B])
  (wfSc : ScatterDims.WF ⟨2, ![B, N]⟩ ⟨2, ![E, 1]⟩ ⟨2, ![B, E]⟩ [0] [1] [1] 1)
  (wfSr : ScatterDims.WF ⟨2, ![N, B]⟩ ⟨2, ![E, 1]⟩ ⟨2, ![E, B]⟩ [1] [0] [0] 1)

/-- One level on the layout `[N, B]`: the gathered rows added to the destination rows. -/
def levelRows (y : (⟨2, ![N, B]⟩ : Shape).Idx → EReal) (src dst : IVec ⟨2, ![E, 1]⟩ w) :
    (⟨2, ![N, B]⟩ : Shape).Idx → EReal :=
  Ideal.hostScatterAdd (LibScatterAddRead.rowsDims N B E wfSr) y dst
    (Host.gather (LibGatherRead.rowsDims N B E wfGr) y src)

/-- One level on the layout `[B, N]`: the gathered columns added to the destination columns. -/
def levelCols (x : (⟨2, ![B, N]⟩ : Shape).Idx → EReal) (src dst : IVec ⟨2, ![E, 1]⟩ w) :
    (⟨2, ![B, N]⟩ : Shape).Idx → EReal :=
  Ideal.hostScatterAdd (LibScatterAddRead.colsDims N E B wfSc) x dst
    (Host.gather (LibGatherRead.colsDims N E B wfGc) x src)

/-- THE LEVEL COMMUTES WITH THE EXCHANGE OF AXES: the row level of a table, read with its axes exchanged, is the column
    level of the table with its axes exchanged. -/
theorem swap2_levelRows (hN : 0 < N) (y : (⟨2, ![N, B]⟩ : Shape).Idx → EReal) (src dst : IVec ⟨2, ![E, 1]⟩ w) :
    swap2 (levelRows wfGr wfSr y src dst) = levelCols wfGc wfSc (swap2 y) src dst := by
  funext i
  obtain ⟨b, n, rfl⟩ : ∃ (b : Fin B) (n : Fin N), i = ix2 b n := ⟨i 0, i 1, eq_ix2 i⟩
  rw [swap2_apply]
  unfold levelRows levelCols
  rw [LibScatterAddRead.scatterAdd_rows_apply, LibScatterAddRead.scatterAdd_cols_apply]
  refine congrArg₂ (· + ·) rfl (Finset.sum_congr rfl fun e _ => ?_)
  rw [LibGatherRead.gather_rows_apply hN, LibGatherRead.gather_cols_apply hN]
  rfl

end Level

end Cert.TransposeLevel

end
-- ==== Proof.KernelRegions.lean ====
/-
  What the two transposing regions leave in their output arrays.

  Each region walks 64 grid points.  At point `t` the first region reads the block of columns `[2048 t, 2048 t + 2048)`
  of a `[512, 131072]` table (all 512 rows), transposes it, and writes it back as the block of rows
  `[2048 t, 2048 t + 2048)` of a `[131072, 512]` table; the second region does the converse.  Entry `(p, q)` of the block
  written at `t` is entry `(q, p)` of the block read at `t`, the two blocks sit at exchanged offsets, and the 64 written
  blocks tile the output array: so the output array ends holding the input array with its two axes exchanged.
  Both facts are stated for ANY contents of the buffers at the region's entry.
-/
import proofs.«430245_j27376121544839_3_alg».proof.Proof.Gen.KernelIdeal.Frame
import proofs.«430245_j27376121544839_3_alg».proof.Proof.TransposeLevel
import Idealize.ShloMosaic.Lib.Pipeline.Value
import Idealize.ShloMosaic.Lib.ValueIdx
import Idealize.ShloMosaic.Lib.ValueLayout

noncomputable section

namespace Cert.KernelIdeal.Transposed

open Cert.KernelIdeal Cert.KernelIdeal.Gen Cert.TransposeLevel
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem offs_zero : (![0, 0] : Fin 2 → Nat) = fun _ => 0 := funext fun a => by fin_cases a <;> rfl

/-! ## The bodies: a transposed block, entry by entry -/

/-- Entry `(p, q)` of what the first body stores is entry `(q, p)` of what it loaded. -/
theorem body0_apply (x0 : Vec F S512x2048 .f32) (p : Fin 2048) (q : Fin 512) : k0_pay1 x0 (ix2 p q) = x0 (ix2 q p) := by
  unfold k0_pay1
  exact transpose_ix2_apply x0 _ p q

/-- Entry `(p, q)` of what the second body stores is entry `(q, p)` of what it loaded (the reshape before the transpose
    keeps the shape). -/
theorem body1_apply (x0 : Vec F S2048x512 .f32) (p : Fin 512) (q : Fin 2048) : k1_pay1 x0 (ix2 p q) = x0 (ix2 q p) := by
  unfold k1_pay1
  rw [shapeCast_self]
  exact transpose_ix2_apply x0 _ p q

/-! ## Region 0: `[512, 131072]` to `[131072, 512]` -/

/-- The printed index maps over the grid: the input block is at column block `t`, the output block at row block `t`. -/
theorem blocks0 : ∀ t : Fin cfg0.N, win0_0.index t (0 : Fin 2) = 0 ∧ win0_1.index t (1 : Fin 2) = 0
    ∧ win0_0.index t (1 : Fin 2) = win0_1.index t (0 : Fin 2) ∧ win0_1.index t (0 : Fin 2) = t.val :=
  (by decide +kernel : ∀ t : Fin grid0.N, _)

/-- What point `t` writes back is block `t` of the input array with its axes exchanged. -/
theorem flushed0 (c : Dev nD) (t : Fin cfg0.N) :
    (dat0 V c).flushed 1 t = ((cfg0.win 1).blk t).view.read (Elt F) (swap2 (V c main_arg0)) := by
  show (cfg0.win 1).cut (grid0.coords t) ((dat0 V c).after 1 t) = _
  rw [after0_1]
  unfold out0_1
  rw [View.canon_unit_zero offs_zero]
  simp only [View.ld_unit_zero (S := S512x2048) offs_zero]
  obtain ⟨e0, e1, e2, -⟩ := blocks0 t
  funext j
  obtain ⟨p, q, rfl⟩ : ∃ (p : Fin 2048) (q : Fin 512), j = ix2 p q := ⟨j 0, j 1, eq_ix2 j⟩
  refine (body0_apply (iblk0 V c 0 t) p q).trans ?_
  show V c main_arg0 (((cfg0.win 0).blk t).view.emb (ix2 q p))
    = V c main_arg0 (ix2 (n0 := 512) (n1 := 131072) ((((cfg0.win 1).blk t).view.emb (ix2 p q)) 1) ((((cfg0.win 1).blk t).view.emb (ix2 p q)) 0))
  refine congrArg (V c main_arg0) (funext fun a => Fin.ext ?_)
  match a with
  | ⟨0, _⟩ =>
    show win0_0.index t (0 : Fin 2) * 512 + 1 * q.val = win0_1.index t (1 : Fin 2) * 512 + 1 * q.val
    omega
  | ⟨1, _⟩ =>
    show win0_0.index t (1 : Fin 2) * 2048 + 1 * p.val = win0_1.index t (0 : Fin 2) * 2048 + 1 * p.val
    omega

/-- An index of the output array is in point `t`'s block iff each coordinate is in the block's range on its axis. -/
theorem mem_blk0 (t : Fin cfg0.N) (i : S131072x512.Idx) :
    i ∈ ((cfg0.win 1).blk t).view.set ↔ ∀ a : Fin 2, win0_1.index t a * S2048x512.size a ≤ (i a).val
      ∧ (i a).val < win0_1.index t a * S2048x512.size a + S2048x512.size a := by
  show i ∈ ((View.whole main_call0_v0).slice (win0_1.rect t)).set ↔ _
  rw [View.set_slice_whole, Rect.mem_set_unit]
  exact Iff.rfl

/-- Every index of the output array is in the block of the point its row names. -/
theorem cover0 (i : S131072x512.Idx) :
    ∃ t : Fin cfg0.N, (cfg0.win 1).flush t = true ∧ i ∈ ((cfg0.win 1).blk t).view.set := by
  have hi0 : (i 0).val < 131072 := (i 0).isLt
  have hi1 : (i 1).val < 512 := (i 1).isLt
  have hN : (i 0).val / 2048 < cfg0.N := by show _ < grid0.N; rw [N_0]; omega
  refine ⟨⟨(i 0).val / 2048, hN⟩, flush0_1 _, ?_⟩
  obtain ⟨-, e1, -, e3⟩ := blocks0 ⟨(i 0).val / 2048, hN⟩
  have e3' : win0_1.index ⟨(i 0).val / 2048, hN⟩ (0 : Fin 2) = (i 0).val / 2048 := e3
  rw [mem_blk0]
  intro a
  match a with
  | ⟨0, _⟩ =>
    show win0_1.index ⟨(i 0).val / 2048, hN⟩ (0 : Fin 2) * 2048 ≤ (i 0).val
      ∧ (i 0).val < win0_1.index ⟨(i 0).val / 2048, hN⟩ (0 : Fin 2) * 2048 + 2048
    omega
  | ⟨1, _⟩ =>
    show win0_1.index ⟨(i 0).val / 2048, hN⟩ (1 : Fin 2) * 512 ≤ (i 1).val
      ∧ (i 1).val < win0_1.index ⟨(i 0).val / 2048, hN⟩ (1 : Fin 2) * 512 + 512
    omega

/-- REGION 0's OUTPUT ARRAY after the region: the input array with its axes exchanged. -/
theorem final0 (c : Dev nD) : (dat0 V c).arrAt 1 cfg0.N = swap2 (V c main_arg0) :=
  (dat0 V c).arrAt_eq_of_cover 1 _ (fun t _ => flushed0 V c t) cover0

/-! ## Region 1: `[131072, 512]` back to `[512, 131072]` -/

/-- The printed index maps over the grid: the input block is at row block `t`, the output block at column block `t`. -/
theorem blocks1 : ∀ t : Fin cfg1.N, win1_0.index t (1 : Fin 2) = 0 ∧ win1_1.index t (0 : Fin 2) = 0
    ∧ win1_0.index t (0 : Fin 2) = win1_1.index t (1 : Fin 2) ∧ win1_1.index t (1 : Fin 2) = t.val :=
  (by decide +kernel : ∀ t : Fin grid1.N, _)

/-- What point `t` writes back is block `t` of the input array with its axes exchanged. -/
theorem flushed1 (c : Dev nD) (t : Fin cfg1.N) :
    (dat1 V c).flushed 1 t = ((cfg1.win 1).blk t).view.read (Elt F) (swap2 (V c main_call0_v72)) := by
  show (cfg1.win 1).cut (grid1.coords t) ((dat1 V c).after 1 t) = _
  rw [after1_1]
  unfold out1_1
  rw [View.canon_unit_zero offs_zero]
  simp only [View.ld_unit_zero (S := S2048x512) offs_zero]
  obtain ⟨e0, e1, e2, -⟩ := blocks1 t
  funext j
  obtain ⟨p, q, rfl⟩ : ∃ (p : Fin 512) (q : Fin 2048), j = ix2 p q := ⟨j 0, j 1, eq_ix2 j⟩
  refine (body1_apply (iblk1 V c 0 t) p q).trans ?_
  show V c main_call0_v72 (((cfg1.win 0).blk t).view.emb (ix2 q p))
    = V c main_call0_v72 (ix2 (n0 := 131072) (n1 := 512) ((((cfg1.win 1).blk t).view.emb (ix2 p q)) 1) ((((cfg1.win 1).blk t).view.emb (ix2 p q)) 0))
  refine congrArg (V c main_call0_v72) (funext fun a => Fin.ext ?_)
  match a with
  | ⟨0, _⟩ =>
    show win1_0.index t (0 : Fin 2) * 2048 + 1 * q.val = win1_1.index t (1 : Fin 2) * 2048 + 1 * q.val
    omega
  | ⟨1, _⟩ =>
    show win1_0.index t (1 : Fin 2) * 512 + 1 * p.val = win1_1.index t (0 : Fin 2) * 512 + 1 * p.val
    omega

/-- An index of the output array is in point `t`'s block iff each coordinate is in the block's range on its axis. -/
theorem mem_blk1 (t : Fin cfg1.N) (i : S512x131072.Idx) :
    i ∈ ((cfg1.win 1).blk t).view.set ↔ ∀ a : Fin 2, win1_1.index t a * S512x2048.size a ≤ (i a).val
      ∧ (i a).val < win1_1.index t a * S512x2048.size a + S512x2048.size a := by
  show i ∈ ((View.whole main_v0).slice (win1_1.rect t)).set ↔ _
  rw [View.set_slice_whole, Rect.mem_set_unit]
  exact Iff.rfl

/-- Every index of the output array is in the block of the point its column names. -/
theorem cover1 (i : S512x131072.Idx) :
    ∃ t : Fin cfg1.N, (cfg1.win 1).flush t = true ∧ i ∈ ((cfg1.win 1).blk t).view.set := by
  have hi0 : (i 0).val < 512 := (i 0).isLt
  have hi1 : (i 1).val < 131072 := (i 1).isLt
  have hN : (i 1).val / 2048 < cfg1.N := by show _ < grid1.N; rw [N_1]; omega
  refine ⟨⟨(i 1).val / 2048, hN⟩, flush1_1 _, ?_⟩
  obtain ⟨-, e1, -, e3⟩ := blocks1 ⟨(i 1).val / 2048, hN⟩
  have e3' : win1_1.index ⟨(i 1).val / 2048, hN⟩ (1 : Fin 2) = (i 1).val / 2048 := e3
  rw [mem_blk1]
  intro a
  match a with
  | ⟨0, _⟩ =>
    show win1_1.index ⟨(i 1).val / 2048, hN⟩ (0 : Fin 2) * 512 ≤ (i 0).val
      ∧ (i 0).val < win1_1.index ⟨(i 1).val / 2048, hN⟩ (0 : Fin 2) * 512 + 512
    omega
  | ⟨1, _⟩ =>
    show win1_1.index ⟨(i 1).val / 2048, hN⟩ (1 : Fin 2) * 2048 ≤ (i 1).val
      ∧ (i 1).val < win1_1.index ⟨(i 1).val / 2048, hN⟩ (1 : Fin 2) * 2048 + 2048
    omega

/-- REGION 1's OUTPUT ARRAY after the region: the input array with its axes exchanged. -/
theorem final1 (c : Dev nD) : (dat1 V c).arrAt 1 cfg1.N = swap2 (V c main_call0_v72) :=
  (dat1 V c).arrAt_eq_of_cover 1 _ (fun t _ => flushed1 V c t) cover1

end Cert.KernelIdeal.Transposed

end
-- ==== Proof.KernelHost.lean ====
/-
  The host operations between the two regions, read back as four levels.

  Between the transposing regions the program runs 88 host operations: four times over (once per edge list, the last
  list first) it slices the list's two rows, turns a negative position `p` into `p + 131072`, lays the positions out as a
  `[131072, 1]` column, gathers the table's rows at the source positions and adds them into the rows at the destination
  positions.  Read back through the list of operations, the buffer the second region reads is therefore the first
  region's output taken through four applications of one function of a table and an edge list, `level`.
-/
import proofs.«430245_j27376121544839_3_alg».proof.Proof.Gen.KernelIdeal.Frame
import Idealize.ShloMosaic.Lib.StableHlo.Run

noncomputable section

namespace Cert.KernelIdeal.Transposed

open Cert.KernelIdeal Cert.KernelIdeal.Gen
open Idealize.ShloMosaic Idealize.ShloMosaic.TcCoe Idealize.SL.Sem Idealize.ShloMosaic.StableHlo

variable {F : FTy → Type} [FloatOps F]

/-- Row `r` of an edge list as a column of positions, a negative position moved up by the table's length. -/
def srcCol (e : (⟨S2x131072, .i32⟩ : BufTy).Contents (Elt F)) : (⟨S131072x1, .i32⟩ : BufTy).Contents (Elt F) :=
  broadcastInDim S131072x1 ![0] bcast_S131072_S131072x1_0
    (select
      (cmpi .slt (shapeCast _ (extractStridedSlice S1x131072 ![0, 0] e slices_S2x131072_S1x131072_0_0) shapeCasts_S1x131072_S131072)
        (broadcastInDim S131072 ![] bcast_S_S131072 (constantI S_ 32 0#32)))
      (addi (shapeCast _ (extractStridedSlice S1x131072 ![0, 0] e slices_S2x131072_S1x131072_0_0) shapeCasts_S1x131072_S131072)
        (broadcastInDim S131072 ![] bcast_S_S131072 (constantI S_ 32 131072#32)))
      (shapeCast _ (extractStridedSlice S1x131072 ![0, 0] e slices_S2x131072_S1x131072_0_0) shapeCasts_S1x131072_S131072))

@[inherit_doc srcCol]
def dstCol (e : (⟨S2x131072, .i32⟩ : BufTy).Contents (Elt F)) : (⟨S131072x1, .i32⟩ : BufTy).Contents (Elt F) :=
  broadcastInDim S131072x1 ![0] bcast_S131072_S131072x1_0
    (select
      (cmpi .slt (shapeCast _ (extractStridedSlice S1x131072 ![1, 0] e slices_S2x131072_S1x131072_1_0) shapeCasts_S1x131072_S131072)
        (broadcastInDim S131072 ![] bcast_S_S131072 (constantI S_ 32 0#32)))
      (addi (shapeCast _ (extractStridedSlice S1x131072 ![1, 0] e slices_S2x131072_S1x131072_1_0) shapeCasts_S1x131072_S131072)
        (broadcastInDim S131072 ![] bcast_S_S131072 (constantI S_ 32 131072#32)))
      (shapeCast _ (extractStridedSlice S1x131072 ![1, 0] e slices_S2x131072_S1x131072_1_0) shapeCasts_S1x131072_S131072))

/-- One level on the `[131072, 512]` layout: the rows at the source positions added into the rows at the destination
    positions. -/
def level (y : (⟨S131072x512, .f32⟩ : BufTy).Contents (Elt F)) (e : (⟨S2x131072, .i32⟩ : BufTy).Contents (Elt F)) :
    (⟨S131072x512, .f32⟩ : BufTy).Contents (Elt F) :=
  Host.scatterAdd scatter_S131072x512_S131072x1_S131072x512_1_0_0_1 y (dstCol (F := F) e)
    (Host.gather gather_S131072x512_S131072x1_S131072x512_1_0_n_n_0_1_1512 y (srcCol (F := F) e))

variable (m : (ℓ : Loc nD τ sig) → Buf (Elt F) ℓ) (ρ : Dev nD → PrngReg)

set_option maxRecDepth 8192 in
set_option maxHeartbeats 35200000 in
/-- The buffer the second region reads, after the 88 host operations: four levels over the first region's exit
    contents, the edge lists taken last first. -/
theorem hostChain (c : Dev nD) :
    V2 m ρ c main_call0_v72
      = level (level (level (level (W1 m ρ c (Proc.devRef .tc main_call0_v0))
          (W1 m ρ c (Proc.devRef .tc main_arg4))) (W1 m ρ c (Proc.devRef .tc main_arg3)))
          (W1 m ρ c (Proc.devRef .tc main_arg2))) (W1 m ρ c (Proc.devRef .tc main_arg1)) := by
  show StableHlo.after hostOps1 (W1 m ρ c) (Proc.devRef .tc main_call0_v72) = _
  after_results_simp <;> rfl <;> (unfold level srcCol dstCol; rfl)

end Cert.KernelIdeal.Transposed

end
-- ==== Proof.Bridge.lean ====
/-
  The two programs compute one function.

  The program with the transposing regions returns `T (L₁ (L₂ (L₃ (L₄ (T x)))))`: `T` exchanges the two axes of a table,
  `Lₖ` is one level on the `[131072, 512]` layout with edge list `k` (rows gathered at the source positions, added into
  the rows at the destination positions).  The reference returns `C₁ (C₂ (C₃ (C₄ x)))` with `Cₖ` the same level on the
  `[512, 131072]` layout (columns).  Since `T (Lₖ y) = Cₖ (T y)` for every table `y` (the sums at an entry are the same sums,
  term by term) and `T (T x) = x`, the two results are equal, entry by entry, as extended reals; the two programs lay
  out their position columns by the same operations, so the columns are the same too.
-/
import proofs.«430245_j27376121544839_3_alg».proof.Proof.KernelRegions
import proofs.«430245_j27376121544839_3_alg».proof.Proof.KernelRun
import proofs.«430245_j27376121544839_3_alg».proof.Proof.KernelHost
import proofs.«430245_j27376121544839_3_alg».proof.Proof.TransposeLevel
import proofs.«430245_j27376121544839_3_alg».proof.Proof.Gen.ReferenceIdeal.Read

noncomputable section

namespace Cert.Bridge

open Idealize.ShloMosaic Idealize.ShloMosaic.TcCoe Idealize.SL.Sem
open Cert.TransposeLevel
open Cert.KernelIdeal.Transposed (level srcCol dstCol)

/-! ## The kernel's result array, from its arguments -/

section KernelSide
open Cert.KernelIdeal Cert.KernelIdeal.Gen Cert.KernelIdeal.Transposed

variable {F : FTy → Type} [FloatOps F]
variable (m : (ℓ : Loc nD τ sig) → Buf (Elt F) ℓ) (ρ : Dev nD → PrngReg)

/-- At the first region's exit its output buffer holds the argument table with its axes exchanged … -/
theorem exit0_table (c : Dev nD) :
    W1 m ρ c (Proc.devRef .tc main_call0_v0) = swap2 (m ((c : Thread nD τ).loc main_arg0)) :=
  (W1_arr m ρ c 1).trans (final0 (V0 m ρ) c)

/-- … and the edge lists are as launched. -/
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)
theorem exit0_arg4 (c : Dev nD) : W1 m ρ c (Proc.devRef .tc main_arg4) = m ((c : Thread nD τ).loc main_arg4) :=
  W1_of_ne m ρ c main_arg4 (by decide)

/-- THE KERNEL'S RESULT: the argument table, axes exchanged, through the four levels, axes exchanged back. -/
theorem result_eq (c : Dev nD) :
    (dat1 (V2 m ρ) c).arrAt 1 cfg1.N
      = swap2 (level (level (level (level (swap2 (m ((c : Thread nD τ).loc main_arg0)))
          (m ((c : Thread nD τ).loc main_arg4))) (m ((c : Thread nD τ).loc main_arg3)))
          (m ((c : Thread nD τ).loc main_arg2))) (m ((c : Thread nD τ).loc main_arg1))) := by
  rw [final1 (V2 m ρ) c, hostChain m ρ c, exit0_table, exit0_arg1, exit0_arg2, exit0_arg3, exit0_arg4]

end KernelSide

/-! ## A row level read with its axes exchanged is the column level -/

section Levels

/-- The kernel's level is the row level of the general statement, at its own dimension numbers. -/
theorem level_rows (y : (⟨Cert.KernelIdeal.S131072x512, .f32⟩ : BufTy).Contents (Elt Ideal))
    (e : (⟨Cert.KernelIdeal.S2x131072, .i32⟩ : BufTy).Contents (Elt Ideal)) :
    level (F := Ideal) y e
      = levelRows (B := 512) (N := 131072) (E := 131072)
          Cert.KernelIdeal.Gen.gather_S131072x512_S131072x1_S131072x512_1_0_n_n_0_1_1512_wf
          Cert.KernelIdeal.Gen.scatter_S131072x512_S131072x1_S131072x512_1_0_0_1_wf
          y (srcCol (F := Ideal) e) (dstCol (F := Ideal) e) := rfl

/-- One level of the reference, as a function of a table and the two position columns. -/
abbrev colLevel (x : (⟨Cert.ReferenceIdeal.S512x131072, .f32⟩ : BufTy).Contents (Elt Ideal))
    (src dst : (⟨Cert.ReferenceIdeal.S131072x1, .i32⟩ : BufTy).Contents (Elt Ideal)) :
    (⟨Cert.ReferenceIdeal.S512x131072, .f32⟩ : BufTy).Contents (Elt Ideal) :=
  levelCols (B := 512) (N := 131072) (E := 131072)
    Cert.ReferenceIdeal.Gen.gather_S512x131072_S131072x1_S512x131072_0_1_n_n_1_1_5121_wf
    Cert.ReferenceIdeal.Gen.scatter_S512x131072_S131072x1_S512x131072_0_1_1_1_wf x src dst

/-- The kernel's level, read with its axes exchanged, is the column level of the exchanged table. -/
theorem swap2_level (y : (⟨Cert.KernelIdeal.S131072x512, .f32⟩ : BufTy).Contents (Elt Ideal))
    (e : (⟨Cert.KernelIdeal.S2x131072, .i32⟩ : BufTy).Contents (Elt Ideal)) :
    swap2 (level (F := Ideal) y e) = colLevel (swap2 y) (srcCol (F := Ideal) e) (dstCol (F := Ideal) e) :=
  (congrArg swap2 (level_rows y e)).trans (swap2_levelRows _ _ _ _ (by decide) y _ _)

end Levels

/-! ## The reference's stages are column levels over the same position columns -/

section ReferenceSide
open Cert.ReferenceIdeal Cert.ReferenceIdeal.Read

variable (x0 : (⟨S512x131072, .f32⟩ : BufTy).Contents (Elt Ideal))
  (x1 x2 x3 x4 : (⟨S2x131072, .i32⟩ : BufTy).Contents (Elt Ideal))

/-- The reference lays out its position columns by the same operations as the kernel. -/
theorem src4 : val_main_v9 (F := Ideal) x4 = srcCol (F := Ideal) x4 := rfl
theorem dst4 : val_main_v16 (F := Ideal) x4 = dstCol (F := Ideal) x4 := rfl
theorem src3 : val_main_v27 (F := Ideal) x3 = srcCol (F := Ideal) x3 := rfl
theorem dst3 : val_main_v34 (F := Ideal) x3 = dstCol (F := Ideal) x3 := rfl
theorem src2 : val_main_v45 (F := Ideal) x2 = srcCol (F := Ideal) x2 := rfl
theorem dst2 : val_main_v52 (F := Ideal) x2 = dstCol (F := Ideal) x2 := rfl
theorem src1 : val_main_v63 (F := Ideal) x1 = srcCol (F := Ideal) x1 := rfl
theorem dst1 : val_main_v70 (F := Ideal) x1 = dstCol (F := Ideal) x1 := rfl

/-- Each accumulating stage of the reference is one column level of the stage before. -/
theorem stage4 : val_main_v17 (F := Ideal) x0 x4 = colLevel x0 (srcCol (F := Ideal) x4) (dstCol (F := Ideal) x4) := rfl
theorem stage3 : val_main_v35 (F := Ideal) x0 x3 x4
    = colLevel (val_main_v17 (F := Ideal) x0 x4) (srcCol (F := Ideal) x3) (dstCol (F := Ideal) x3) := rfl
theorem stage2 : val_main_v53 (F := Ideal) x0 x2 x3 x4
    = colLevel (val_main_v35 (F := Ideal) x0 x3 x4) (srcCol (F := Ideal) x2) (dstCol (F := Ideal) x2) := rfl
theorem stage1 : val_main_v71 (F := Ideal) x0 x1 x2 x3 x4
    = colLevel (val_main_v53 (F := Ideal) x0 x2 x3 x4) (srcCol (F := Ideal) x1) (dstCol (F := Ideal) x1) := rfl

/-- THE TWO RESULTS ARE ONE FUNCTION of the argument table and the four edge lists. -/
theorem kernel_eq_reference :
    swap2 (level (F := Ideal) (level (F := Ideal) (level (F := Ideal) (level (F := Ideal) (swap2 x0) x4) x3) x2) x1)
      = val_main_v71 (F := Ideal) x0 x1 x2 x3 x4 := by
  rw [swap2_level, swap2_level, swap2_level, swap2_level, swap2_swap2,
    stage1, stage2, stage3, stage4]

end ReferenceSide

end Cert.Bridge

end
-- ==== Proof.lean ====
/-
  Tree aggregation over four levels of edges, computed on a transposed layout, against the direct computation.

  The reference takes a table `x : [512, 131072]` and four edge lists `[2, 131072]` (row 0 the source positions, row 1 the
  destination positions) and, for the lists 3, 2, 1, 0 in turn, adds to every column of the table the columns named as
  sources by the entries whose destination it is (a source position clamped into the table, an entry whose destination
  is outside the table dropped, all reads from the table before the level).  The kernel first transposes the table to
  `[131072, 512]` (a pipelined region of 64 grid points, each transposing a `[512, 2048]` block), runs the same four
  levels on rows instead of columns, and transposes back (a second region of 64 points).

  Over the extended reals both results are the same function of the arguments: a level on rows, read with the axes
  exchanged, is the level on columns of the exchanged table — at an entry both are the entry plus one sum over the edge
  entries with that destination, term by term the same —, and exchanging the axes twice is the identity.  Nothing is
  used of the extended reals beyond that; the precondition (finite inputs) is not needed.

  The frames of the two kernel programs are the generated ones; the reference's frame is its generated run with the
  result dropped; the idealization rewrote no operation, so nothing is owed for it.
-/
import proofs.«430245_j27376121544839_3_alg».proof.Defs
import proofs.«430245_j27376121544839_3_alg».proof.Proof.Gen.Kernel
import proofs.«430245_j27376121544839_3_alg».proof.Proof.Gen.Kernel.Skeleton
import proofs.«430245_j27376121544839_3_alg».proof.Proof.Gen.Kernel.Launch
import proofs.«430245_j27376121544839_3_alg».proof.Proof.Gen.Kernel.Points
import proofs.«430245_j27376121544839_3_alg».proof.Proof.Gen.Kernel.Frame
import proofs.«430245_j27376121544839_3_alg».proof.Proof.Gen.KernelIdeal
import proofs.«430245_j27376121544839_3_alg».proof.Proof.Gen.KernelIdeal.Skeleton
import proofs.«430245_j27376121544839_3_alg».proof.Proof.Gen.KernelIdeal.Launch
import proofs.«430245_j27376121544839_3_alg».proof.Proof.Gen.KernelIdeal.Points
import proofs.«430245_j27376121544839_3_alg».proof.Proof.Gen.KernelIdeal.Frame
import proofs.«430245_j27376121544839_3_alg».proof.Proof.Gen.ReferenceIdeal
import proofs.«430245_j27376121544839_3_alg».proof.Proof.Gen.Pre_finite_inputs
import proofs.«430245_j27376121544839_3_alg».proof.Proof.Gen.ReferenceIdeal.Run
import proofs.«430245_j27376121544839_3_alg».proof.Proof.Gen.ReferenceIdeal.Read
import proofs.«430245_j27376121544839_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the kernel's arguments: the kernel because its transposed
    levels are the reference's levels, the reference because its arguments agree with the kernel's. -/
theorem algebraic : Cert.algebraic_KernelIdeal_ReferenceIdeal := by
  intro m ρ m' ρ' _ hagree
  refine ⟨fun c => Cert.ReferenceIdeal.Read.val_main_v71 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, (h c).2⟩)
      (Cert.KernelIdeal.Transposed.run_result (F := Ideal) m ρ)
    exact ((h c).1.trans (Cert.Bridge.result_eq m ρ c)).trans (Cert.Bridge.kernel_eq_reference _ _ _ _ _)
  · refine (θ_run Cert.ReferenceIdeal.defs _ _).mono (fun r h c => ⟨?_, (h c).2⟩)
      (Cert.ReferenceIdeal.Value.run (F := Ideal) m' ρ')
    rw [(h c).1, Cert.ReferenceIdeal.Read.val_main_v71_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
